-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024x2 : Shape := ⟨3, ![1024, 1024, 2]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024x2 : S_.BroadcastsInDim S1024x1024x2 (![] : Fin 0 → Fin S1024x1024x2.rank)
  reducesTo_S1024x1024x2_S_d0_1_2 : S1024x1024x2.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S32768x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  main_v23

def fn {F : FTy → Type} [FloatOps F] (main_arg0 : FVec F S32768x1024 .f32) (main_arg1 : FVec F S1024x1024x2 .f32) (main_arg2 : FVec F S1024 .f32) (main_arg3 : FVec F S1024 .f32) (main_arg4 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024x2 .f32 := Host.absf main_arg1
  let main_cst_0 : FVec F S_ .f32 := constant S_ .f32 0x7F800000#32
  let main_v5 : FVec F S1024x1024x2 .f32 := broadcastInDim S1024x1024x2 ![] bcast_S_S1024x1024x2 main_cst_0
  let main_v6 : IVec S1024x1024x2 1 := cmpf .olt main_v4 main_v5
  let main_c_1 : IVec S_ 1 := constantI S_ 1 1#1
  let main_v7 : IVec S_ 1 := (fun x v => Host.reduce IntOp.andi x v reducesTo_S1024x1024x2_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32768x1024 : Shape := ⟨2, ![32768, 1024]⟩
abbrev S1024x1024x2 : Shape := ⟨3, ![1024, 1024, 2]⟩
abbrev S1024 : Shape := ⟨1, ![1024]⟩
abbrev S_ : Shape := ⟨0, ![]⟩
abbrev S1024x1024x1 : Shape := ⟨3, ![1024, 1024, 1]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 33
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024x2, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S1024x1024x2, .f32⟩
  | .hbm, ⟨6, _⟩ => ⟨S1024x1024x2, .f32⟩
  | .hbm, ⟨7, _⟩ => ⟨S_, .f32⟩
  | .hbm, ⟨8, _⟩ => ⟨S1024x1024x2, .f32⟩
  | .hbm, ⟨9, _⟩ => ⟨S1024x1024x2, .f32⟩
  | .hbm, ⟨10, _⟩ => ⟨S_, .f32⟩
  | .hbm, ⟨11, _⟩ => ⟨S1024x1024x2, .f32⟩
  | .hbm, ⟨12, _⟩ => ⟨S1024x1024x2, .f32⟩
  | .hbm, ⟨13, _⟩ => ⟨S1024x1024x1, .f32⟩
  | .hbm, ⟨14, _⟩ => ⟨S1024x1024, .f32⟩
  | .hbm, ⟨15, _⟩ => ⟨S1024x1024x1, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1x1024, .f32⟩
  | .hbm, ⟨31, _⟩ => ⟨S1x1024, .f32⟩
  | .hbm, ⟨32, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x1024x2 : S_.BroadcastsInDim S1024x1024x2 (![] : Fin 0 → Fin S1024x1024x2.rank)
  slices_S1024x1024x2_S1024x1024x1_0_0_0 : S1024x1024x2.Slices ![0, 0, 0] S1024x1024x1
  shapeCasts_S1024x1024x1_S1024x1024 : S1024x1024x1.ShapeCasts S1024x1024
  slices_S1024x1024x2_S1024x1024x1_0_0_1 : S1024x1024x2.Slices ![0, 0, 1] S1024x1024x1
  bcast_S_S1024x1024 : S_.BroadcastsInDim S1024x1024 (![] : Fin 0 → Fin S1024x1024.rank)
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024x2 : Shape := ⟨3, ![1024, 1024, 2]⟩
abbrev S1024 : Shape := ⟨1, ![1024]⟩
abbrev S_ : Shape := ⟨0, ![]⟩
abbrev S1024x1024x1 : Shape := ⟨3, ![1024, 1024, 1]⟩
abbrev S1024x1024 : Shape := ⟨2, ![1024, 1024]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024x2, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S1024x1024x2, .f32⟩
  | .hbm, ⟨6, _⟩ => ⟨S1024x1024x2, .f32⟩
  | .hbm, ⟨7, _⟩ => ⟨S_, .f32⟩
  | .hbm, ⟨8, _⟩ => ⟨S1024x1024x2, .f32⟩
  | .hbm, ⟨9, _⟩ => ⟨S1024x1024x2, .f32⟩
  | .hbm, ⟨10, _⟩ => ⟨S_, .f32⟩
  | .hbm, ⟨11, _⟩ => ⟨S1024x1024x2, .f32⟩
  | .hbm, ⟨12, _⟩ => ⟨S1024x1024x2, .f32⟩
  | .hbm, ⟨13, _⟩ => ⟨S1024x1024x1, .f32⟩
  | .hbm, ⟨14, _⟩ => ⟨S1024x1024, .f32⟩
  | .hbm, ⟨15, _⟩ => ⟨S1024x1024x1, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S_S1024x1024x2 : S_.BroadcastsInDim S1024x1024x2 (![] : Fin 0 → Fin S1024x1024x2.rank)
  slices_S1024x1024x2_S1024x1024x1_0_0_0 : S1024x1024x2.Slices ![0, 0, 0] S1024x1024x1
  shapeCasts_S1024x1024x1_S1024x1024 : S1024x1024x1.ShapeCasts S1024x1024
  slices_S1024x1024x2_S1024x1024x1_0_0_1 : S1024x1024x2.Slices ![0, 0, 1] S1024x1024x1
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KernelPoint.lean ====
/-
  The kernel body at one entry of its output block.

  From a block of 512 token rows x, the two weight matrices stored [input, channel], the noise block and the one-row
  scale and shift, the body stores at (p, q)

      ((Σ_k x[p,k] · wm[k,q]) + √(max(Σ_k (x[p,k] · x[p,k]) · wv[k,q], 0)) · noise[p,q]) · scale[0,q] + shift[0,q]:

  each matrix product goes into a zero accumulator, so it is the plain sum over the contracted coordinate; the
  narrowing to a shorter float format before a product is the identity on the extended reals; the shape casts keep
  the shape; and the one-row scale and shift are broadcast down the 512 rows.
-/
import proofs.«155211_j36369783063105_1_alg».proof.Proof.Gen.KernelIdeal.Skeleton
import proofs.«155211_j36369783063105_1_alg».proof.Proof.LibPlainDot
import proofs.«155211_j36369783063105_1_alg».proof.Proof.LibRowBias
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The first product at (p, q): the plain sum over the contracted coordinate. -/
theorem mean_at (x0 : Vec Ideal S512x1024 .f32) (w1 : Vec Ideal S1024x1024 .f32) (p : Fin 512) (q : Fin 1024) :
    matmul (F := Ideal) dot_S512x1024_S1024x1024_S512x1024_1_0_0_1_n_n none (truncf .bf16 x0 bitsLt_bf16_f32)
        (truncf .bf16 w1 bitsLt_bf16_f32) (constant S512x1024 .f32 0x00000000#32) (ix2 p q)
      = ∑ k : Fin 1024, x0 (ix2 p k) * w1 (ix2 k q) :=
  Cert.PlainDot.matmul_zero_apply (M := 512) (K := 1024) (N := 1024) none (truncf .bf16 x0 bitsLt_bf16_f32)
    (truncf .bf16 w1 bitsLt_bf16_f32) p q

/-- The second product at (p, q): the same sum with the squares of the token row. -/
theorem var_at (x0 : Vec Ideal S512x1024 .f32) (w2 : Vec Ideal S1024x1024 .f32) (p : Fin 512) (q : Fin 1024) :
    matmul (F := Ideal) dot_S512x1024_S1024x1024_S512x1024_1_0_0_1_n_n none (truncf .bf16 (mulf x0 x0) bitsLt_bf16_f32)
        (truncf .bf16 w2 bitsLt_bf16_f32) (constant S512x1024 .f32 0x00000000#32) (ix2 p q)
      = ∑ k : Fin 1024, (x0 (ix2 p k) * x0 (ix2 p k)) * w2 (ix2 k q) :=
  Cert.PlainDot.matmul_zero_apply (M := 512) (K := 1024) (N := 1024) none (truncf .bf16 (mulf x0 x0) bitsLt_bf16_f32)
    (truncf .bf16 w2 bitsLt_bf16_f32) p q

/-- A one-row matrix broadcast down the block's rows, at (p, q), is the row's entry q. -/
theorem row_at (v : Vec Ideal S1x1024 .f32) (p : Fin 512) (q : Fin 1024) :
    broadcastTo S512x1024 v broadcasts_S1x1024_S512x1024 (ix2 p q) = v (ix2 (0 : Fin 1) q) :=
  Cert.RowBias.rows_apply (M := 512) v broadcasts_S1x1024_S512x1024 p q

/-- What the body stores at entry (p, q) of its block. -/
theorem body_at (x0 : Vec Ideal S512x1024 .f32) (w1 w2 : Vec Ideal S1024x1024 .f32) (nz : Vec Ideal S512x1024 .f32)
    (sc sh : Vec Ideal S1x1024 .f32) (p : Fin 512) (q : Fin 1024) :
    k0_pay1 (F := Ideal) x0 w1 w2 nz sc sh (ix2 p q)
      = ((∑ k : Fin 1024, x0 (ix2 p k) * w1 (ix2 k q))
          + Ideal.sqrt (max (∑ k : Fin 1024, (x0 (ix2 p k) * x0 (ix2 p k)) * w2 (ix2 k q)) 0) * nz (ix2 p q))
        * sc (ix2 (0 : Fin 1) q) + sh (ix2 (0 : Fin 1) q) := by
  unfold k0_pay1
  simp only [shapeCast_self]
  show (matmul (F := Ideal) dot_S512x1024_S1024x1024_S512x1024_1_0_0_1_n_n none (truncf .bf16 x0 bitsLt_bf16_f32)
          (truncf .bf16 w1 bitsLt_bf16_f32) (constant S512x1024 .f32 0x00000000#32) (ix2 p q)
        + Ideal.sqrt (max (matmul (F := Ideal) dot_S512x1024_S1024x1024_S512x1024_1_0_0_1_n_n none (truncf .bf16 (mulf x0 x0) bitsLt_bf16_f32)
            (truncf .bf16 w2 bitsLt_bf16_f32) (constant S512x1024 .f32 0x00000000#32) (ix2 p q)) (Ideal.ofBits .f32 0x00000000#32))
          * nz (ix2 p q))
      * broadcastTo S512x1024 sc broadcasts_S1x1024_S512x1024 (ix2 p q)
      + broadcastTo S512x1024 sh broadcasts_S1x1024_S512x1024 (ix2 p q) = _
  rw [mean_at, var_at, row_at, row_at, Ideal.ofBits_zero_f32]

end Cert.KernelIdeal.Hand

end
-- ==== Proof.KernelHost.lean ====
/-
  What the kernel region finds in the arrays the host wrote before it: the two weight matrices are the transposes of
  the mean and variance stages (the same operations on the logits, in the same order, as the reference's), and the scale
  and the shift are the argument vectors laid out as one-row matrices.
-/
import proofs.«155211_j36369783063105_1_alg».proof.Proof.Gen.KernelIdeal.Frame
import proofs.«155211_j36369783063105_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Window 1's array: the mean stage of the logits, transposed. -/
theorem V_mean (c : Dev nD) :
    (V m c main_v19 : S1024x1024.Idx → EReal)
      = transpose S1024x1024 [1, 0] (Cert.ReferenceIdeal.Read.val_main_v14 (F := Ideal) (m ((c : Thread nD τ).loc main_arg1)))
          transposes_S1024x1024_S1024x1024_1_0 := by
  dsimp only [V, hostOps0]
  after_results_simp
  rfl

/-- Window 2's array: the variance stage of the logits, transposed. -/
theorem V_var (c : Dev nD) :
    (V m c main_v20 : S1024x1024.Idx → EReal)
      = transpose S1024x1024 [1, 0] (Cert.ReferenceIdeal.Read.val_main_v18 (F := Ideal) (m ((c : Thread nD τ).loc main_arg1)))
          transposes_S1024x1024_S1024x1024_1_0 := by
  dsimp only [V, hostOps0]
  after_results_simp
  rfl

/-- Window 4's array: the scale vector as a one-row matrix. -/
theorem V_scale (c : Dev nD) :
    (V m c main_v21 : S1x1024.Idx → EReal)
      = shapeCast S1x1024 (m ((c : Thread nD τ).loc main_arg2) : S1024.Idx → EReal) shapeCasts_S1024_S1x1024 := by
  dsimp only [V, hostOps0]
  after_results_simp
  rfl

/-- Window 5's array: the shift vector as a one-row matrix. -/
theorem V_shift (c : Dev nD) :
    (V m c main_v22 : S1x1024.Idx → EReal)
      = shapeCast S1x1024 (m ((c : Thread nD τ).loc main_arg3) : S1024.Idx → EReal) shapeCasts_S1024_S1x1024 := by
  dsimp only [V, hostOps0]
  after_results_simp
  rfl

end Cert.KernelIdeal.Hand

end
-- ==== Proof.Spec.lean ====
/-
  The mathematics of the stochastic ternary linear layer, with no program in sight.

  For a token row x[n, ·], an output channel o and weights given by two logits per entry, the layer returns

      ((Σ_k x[n,k] · mean[o,k]) + √(Σ_k x[n,k]² · var[o,k]) · noise[n,o]) · scale[o] + shift[o],

  where, with p = 1/(1 + e^(-a)) the probability that the weight is not zero and s = 2/(1 + e^(-b)) - 1 the expected
  sign, mean = p · s and var = p - p² · s². One arrangement stores the two weight matrices transposed, the scale and
  the shift as one-row matrices, and clamps the variance sum at zero from below before the square root. The clamp does
  nothing: p lies in [0, 1] and s in [-1, 1] for every extended real logit, so var ≥ 0, a square x · x is never
  negative on the extended reals, and a sum of products of such terms is not negative.
-/
import Idealize.ShloMosaic.PureOps.Ideal.Laws
import Idealize.ShloMosaic.Lib.ValueIdx
import Idealize.ShloMosaic.Lib.IdealHost

noncomputable section

open scoped BigOperators

namespace Cert.Ternary

open Idealize.ShloMosaic Idealize.ShloMosaic.ValueIdx

/-! ## The scalars -/

/-- The logistic function as the quotient 1 / (1 + e^(-a)), on the extended reals. -/
def sigm (a : EReal) : EReal := Ideal.div 1 (1 + Ideal.exp (-a))

/-- The logistic value is a real number of the unit interval, at the two infinities too (there it is 0 and 1). -/
theorem sigm_unit (a : EReal) : ∃ r : ℝ, 0 ≤ r ∧ r ≤ 1 ∧ sigm a = (r : EReal) := by
  induction a using EReal.rec with
  | bot =>
    refine ⟨0, le_refl _, zero_le_one, ?_⟩
    have h1 : (1 : EReal) + ⊤ = ⊤ := by rw [← EReal.coe_one]; exact EReal.coe_add_top 1
    simp [sigm, Ideal.div, h1]
  | top =>
    refine ⟨1, zero_le_one, le_refl _, ?_⟩
    simp [sigm, Ideal.div]
  | coe r =>
    have hpos : (0 : ℝ) < 1 + Real.exp (-r) := by positivity
    refine ⟨1 / (1 + Real.exp (-r)), by positivity, ?_, ?_⟩
    · rw [div_le_one hpos]; linarith [Real.exp_pos (-r)]
    · unfold sigm
      rw [← EReal.coe_neg, Ideal.exp_coe, ← EReal.coe_one, ← EReal.coe_add, Ideal.div_coe hpos.ne', EReal.coe_one, one_mul]

/-- The variance of one ternary weight from its two logits: p - p² · s² with p the logistic of the first logit and
    s = 2 · logistic of the second - 1. -/
def wvar (a b : EReal) : EReal :=
  sigm a - (sigm a * sigm a) * ((((2 : ℝ) : EReal) * sigm b - 1) * (((2 : ℝ) : EReal) * sigm b - 1))

/-- The variance is not negative: p² · s² ≤ p² ≤ p on the unit interval. -/
theorem wvar_nonneg (a b : EReal) : 0 ≤ wvar a b := by
  obtain ⟨p, hp0, hp1, ep⟩ := sigm_unit a
  obtain ⟨q, hq0, hq1, eq⟩ := sigm_unit b
  have key : (0 : ℝ) ≤ p - (p * p) * ((2 * q - 1) * (2 * q - 1)) := by
    have hs2 : (2 * q - 1) * (2 * q - 1) ≤ 1 := by nlinarith [mul_nonneg hq0 (sub_nonneg.mpr hq1)]
    have hpp : p * p ≤ p := by nlinarith
    have h := mul_le_mul_of_nonneg_left hs2 (mul_nonneg hp0 hp0)
    linarith
  have hc : ((p - (p * p) * ((2 * q - 1) * (2 * q - 1)) : ℝ) : EReal)
      = (p : EReal) - ((p : EReal) * (p : EReal)) * ((((2 : ℝ) : EReal) * (q : EReal) - 1) * (((2 : ℝ) : EReal) * (q : EReal) - 1)) := by
    simp only [EReal.coe_sub, EReal.coe_mul, EReal.coe_one]
  unfold wvar
  rw [ep, eq, ← hc]
  exact EReal.coe_nonneg.mpr key

/-- A square is not negative on the extended reals (the infinities square to +∞). -/
theorem mul_self_nonneg_ereal (x : EReal) : 0 ≤ x * x := by
  rcases le_total 0 x with h | h
  · exact EReal.mul_nonneg_iff.mpr (.inl ⟨h, h⟩)
  · exact EReal.mul_nonneg_iff.mpr (.inr ⟨h, h⟩)

/-- The f32 pattern 0x40000000 is the real number two. -/
theorem ofBits_two_f32 : Ideal.ofBits .f32 0x40000000#32 = ((2 : ℝ) : EReal) := by
  simp [Ideal.ofBits, Ideal.ieee, -EReal.coe_mul]; norm_num

/-! ## The arrays -/

abbrev STok : Shape := ⟨2, ![32768, 1024]⟩
abbrev SWgt : Shape := ⟨2, ![1024, 1024]⟩
abbrev SVec : Shape := ⟨1, ![1024]⟩
abbrev SRow : Shape := ⟨2, ![1, 1024]⟩

/-- The layer's output at token p, channel q, from the token rows, the weight means and variances stored [channel, input],
    the scale and shift vectors and the noise. -/
def layerAt (x : STok.Idx → EReal) (wm wv : SWgt.Idx → EReal) (sc sh : SVec.Idx → EReal) (nz : STok.Idx → EReal)
    (p : Fin 32768) (q : Fin 1024) : EReal :=
  ((∑ k : Fin 1024, x (ix2 p k) * wm (ix2 q k))
      + Ideal.sqrt (∑ k : Fin 1024, (x (ix2 p k) * x (ix2 p k)) * wv (ix2 q k)) * nz (ix2 p q)) * sc (ix1 q) + sh (ix1 q)

/-- The layer's output array. -/
def layer (x : STok.Idx → EReal) (wm wv : SWgt.Idx → EReal) (sc sh : SVec.Idx → EReal) (nz : STok.Idx → EReal) :
    STok.Idx → EReal :=
  fun j => layerAt x wm wv sc sh nz ⟨(j 0).val, (j 0).isLt⟩ ⟨(j 1).val, (j 1).isLt⟩

/-- The other arrangement at token p, channel q: the weight matrices stored [input, channel], the scale and shift as
    one-row matrices, and the variance sum clamped at zero from below before the square root. -/
def clampedAt (x : STok.Idx → EReal) (wmt wvt : SWgt.Idx → EReal) (nz : STok.Idx → EReal) (sc2 sh2 : SRow.Idx → EReal)
    (p : Fin 32768) (q : Fin 1024) : EReal :=
  ((∑ k : Fin 1024, x (ix2 p k) * wmt (ix2 k q))
      + Ideal.sqrt (max (∑ k : Fin 1024, (x (ix2 p k) * x (ix2 p k)) * wvt (ix2 k q)) 0) * nz (ix2 p q))
    * sc2 (ix2 (0 : Fin 1) q) + sh2 (ix2 (0 : Fin 1) q)

/-- That arrangement's output array. -/
def clamped (x : STok.Idx → EReal) (wmt wvt : SWgt.Idx → EReal) (nz : STok.Idx → EReal) (sc2 sh2 : SRow.Idx → EReal) :
    STok.Idx → EReal :=
  fun j => clampedAt x wmt wvt nz sc2 sh2 ⟨(j 0).val, (j 0).isLt⟩ ⟨(j 1).val, (j 1).isLt⟩

/-- The two arrangements agree when the stored matrices are each other's transposes, the rows are the vectors, and
    the variances are not negative: the clamped sum is a sum of products of squares with variances. -/
theorem clamped_eq_layer (x : STok.Idx → EReal) (wm wv wmt wvt : SWgt.Idx → EReal) (sc sh : SVec.Idx → EReal)
    (sc2 sh2 : SRow.Idx → EReal) (nz : STok.Idx → EReal)
    (hwm : ∀ (k q : Fin 1024), wmt (ix2 k q) = wm (ix2 q k)) (hwv : ∀ (k q : Fin 1024), wvt (ix2 k q) = wv (ix2 q k))
    (hsc : ∀ q : Fin 1024, sc2 (ix2 (0 : Fin 1) q) = sc (ix1 q)) (hsh : ∀ q : Fin 1024, sh2 (ix2 (0 : Fin 1) q) = sh (ix1 q))
    (hnn : ∀ (q k : Fin 1024), 0 ≤ wv (ix2 q k)) :
    clamped x wmt wvt nz sc2 sh2 = layer x wm wv sc sh nz := by
  funext j
  unfold clamped layer clampedAt layerAt
  simp only [hwm, hwv, hsc, hsh]
  rw [max_eq_left (Finset.sum_nonneg fun k _ => EReal.mul_nonneg (mul_self_nonneg_ereal _) (hnn _ k))]

end Cert.Ternary

end
-- ==== Proof.RefVariance.lean ====
/-
  The weight-variance stage is not negative. Read at entry (o, k) through the generated one-operation lemmas, the
  stage the reference builds from the logits is p - p² · s² with p the logistic of logit (o, k, 0) and s twice the
  logistic of logit (o, k, 1) minus one: the two slices pick the last coordinate, and the reshape that drops the unit
  axis keeps (o, k). That scalar is not negative for every pair of extended real logits.
-/
import proofs.«155211_j36369783063105_1_alg».proof.Proof.Gen.ReferenceIdeal.Read
import proofs.«155211_j36369783063105_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Ternary

/-- Entry (o, k) of the first slice, reshaped, is entry (o, k, 0) of the sliced array. -/
theorem idx_mag (o k : Fin 1024) : idx_main_v6 (idx_main_v7 (ix2 o k)) = ix3 o k (0 : Fin 2) := by
  have ho := o.isLt
  have hk := k.isLt
  funext a; apply Fin.ext
  match a with
  | ⟨0, _⟩ => show (o.val * 1024 + k.val) / 1024 = o.val; omega
  | ⟨1, _⟩ => show (o.val * 1024 + k.val) / 1 % 1024 = k.val; omega
  | ⟨2, _⟩ => rfl

/-- Entry (o, k) of the second slice, reshaped, is entry (o, k, 1) of the sliced array. -/
theorem idx_sgn (o k : Fin 1024) : idx_main_v8 (idx_main_v9 (ix2 o k)) = ix3 o k (1 : Fin 2) := by
  have ho := o.isLt
  have hk := k.isLt
  funext a; apply Fin.ext
  match a with
  | ⟨0, _⟩ => show (o.val * 1024 + k.val) / 1024 = o.val; omega
  | ⟨1, _⟩ => show (o.val * 1024 + k.val) / 1 % 1024 = k.val; omega
  | ⟨2, _⟩ => rfl

/-- The variance stage at entry (o, k) is the scalar variance of that entry's two logits. -/
theorem variance_at (x1 : (⟨S1024x1024x2, .f32⟩ : BufTy).Contents (Elt Ideal)) (o k : Fin 1024) :
    val_main_v18 (F := Ideal) x1 (ix2 o k) = wvar (x1 (ix3 o k (0 : Fin 2))) (x1 (ix3 o k (1 : Fin 2))) := by
  simp only [val_main_v18_apply, val_main_v17_apply, val_main_v16_apply, val_main_v15_apply, val_main_v13_apply,
    val_main_v12_apply, val_main_cst_2_apply, val_main_v11_apply, val_main_v10_apply, val_main_cst_1_apply,
    val_main_v9_apply, val_main_v8_apply, val_main_v7_apply, val_main_v6_apply, val_main_v5_apply, val_main_v4_apply,
    val_main_cst_0_apply, val_main_v3_apply, val_main_v2_apply, val_main_cst_apply, val_main_v1_apply, val_main_v0_apply,
    idx_mag, idx_sgn, Ideal.ofBits_def, Ideal.ofBits_one_f32, ofBits_two_f32, Ideal.hostDivf_def, Ideal.addf_def,
    Ideal.subf_def, Ideal.mulf_def, Ideal.hostUnary_exp_def, Ideal.hostNegf_def, Ideal.negf_def]
  rfl

/-- So the variance stage is not negative anywhere. -/
theorem variance_nonneg (x1 : (⟨S1024x1024x2, .f32⟩ : BufTy).Contents (Elt Ideal)) (o k : Fin 1024) :
    0 ≤ val_main_v18 (F := Ideal) x1 (ix2 o k) := by
  rw [variance_at]
  exact wvar_nonneg _ _

end Cert.ReferenceIdeal.RefValue

end
-- ==== Proof.KernelValue.lean ====
/-
  The array the kernel region leaves.

  Grid point t works on token rows 512 t … 512 t + 511: the token block and the noise block move with t, the two weight
  matrices and the one-row scale and shift are the same whole arrays at every point, and the output block is rows
  512 t … of the result. So what point t writes back is block t of ONE function of the arrays the region finds — the
  clamped arrangement of the layer — and the 64 blocks tile the 32768 rows (row r lies in block r / 512). With the
  host-written arrays named (the transposed mean and variance stages, the scale and shift as rows) and the variance
  stage not negative, that function is the layer's output of the arguments.
-/
import proofs.«155211_j36369783063105_1_alg».proof.Proof.Gen.KernelIdeal.Value
import proofs.«155211_j36369783063105_1_alg».proof.Proof.KernelPoint
import proofs.«155211_j36369783063105_1_alg».proof.Proof.KernelHost
import proofs.«155211_j36369783063105_1_alg».proof.Proof.RefVariance
import proofs.«155211_j36369783063105_1_alg».proof.Proof.Spec
import Idealize.ShloMosaic.Lib.Pipeline.Value
import Idealize.ShloMosaic.Lib.ValueLayout

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Ternary

variable (m : (ℓ : Loc nD τ sig) → Buf (Elt Ideal) ℓ) (ρ : Dev nD → PrngReg)

theorem hz : (![0, 0] : Fin 2 → Nat) = fun _ => 0 := funext fun a => by fin_cases a <;> rfl

/-- The index maps over the 64 grid points: the token, noise and output windows are at block row t, block column 0;
    the four other windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as entries of the array the region finds -/

/-- The token block at point t: row p of the block is row 512 t + p of the tokens. -/
theorem tok_at (c : Dev nD) (t : Fin cfg0.N) (p : Fin 512) (k : Fin 1024) (r : Fin 32768) (hr : r.val = t.val * 512 + p.val) :
    (iblk m c 0 t : Vec Ideal S512x1024 .f32) (ix2 p k) = (V m c main_arg0 : S32768x1024.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 1024 + 1 * k.val = k.val; rw [e1]; omega

/-- The noise block at point t: row p of the block is row 512 t + p of the noise. -/
theorem noise_at (c : Dev nD) (t : Fin cfg0.N) (p : Fin 512) (q : Fin 1024) (r : Fin 32768) (hr : r.val = t.val * 512 + p.val) :
    (iblk m c 3 t : Vec Ideal S512x1024 .f32) (ix2 p q) = (V m c main_arg4 : S32768x1024.Idx → EReal) (ix2 r q) := by
  obtain ⟨-, -, -, -, -, -, e0, e1, -⟩ := idx_facts t
  unfold iblk
  rw [View.read_apply]
  show V m c main_arg4 _ = V m c main_arg4 _
  congr 1
  funext a
  apply Fin.ext
  match a with
  | ⟨0, _⟩ => show win0_3.index t 0 * 512 + 1 * p.val = r.val; rw [e0, hr]; omega
  | ⟨1, _⟩ => show win0_3.index t 1 * 1024 + 1 * q.val = q.val; rw [e1]; omega

/-- The first weight window's block is its whole array at every point. -/
theorem wmean_at (c : Dev nD) (t : Fin cfg0.N) (k q : Fin 1024) :
    (iblk m c 1 t : Vec Ideal S1024x1024 .f32) (ix2 k q) = (V m c main_v19 : S1024x1024.Idx → EReal) (ix2 k q) := by
  obtain ⟨-, -, e0, e1, -⟩ := idx_facts t
  unfold iblk
  rw [View.read_apply]
  show V m c main_v19 _ = V m c main_v19 _
  congr 1
  funext a
  apply Fin.ext
  match a with
  | ⟨0, _⟩ => show win0_1.index t 0 * 1024 + 1 * k.val = k.val; rw [e0]; omega
  | ⟨1, _⟩ => show win0_1.index t 1 * 1024 + 1 * q.val = q.val; rw [e1]; omega

/-- The second weight window's block is its whole array at every point. -/
theorem wvar_at (c : Dev nD) (t : Fin cfg0.N) (k q : Fin 1024) :
    (iblk m c 2 t : Vec Ideal S1024x1024 .f32) (ix2 k q) = (V m c main_v20 : S1024x1024.Idx → EReal) (ix2 k q) := by
  obtain ⟨-, -, -, -, e0, e1, -⟩ := idx_facts t
  unfold iblk
  rw [View.read_apply]
  show V m c main_v20 _ = V m c main_v20 _
  congr 1
  funext a
  apply Fin.ext
  match a with
  | ⟨0, _⟩ => show win0_2.index t 0 * 1024 + 1 * k.val = k.val; rw [e0]; omega
  | ⟨1, _⟩ => show win0_2.index t 1 * 1024 + 1 * q.val = q.val; rw [e1]; omega

/-- The scale window's block is its whole one-row array at every point. -/
theorem scale_at (c : Dev nD) (t : Fin cfg0.N) (q : Fin 1024) :
    (iblk m c 4 t : Vec Ideal S1x1024 .f32) (ix2 (0 : Fin 1) q) = (V m c main_v21 : S1x1024.Idx → EReal) (ix2 (0 : Fin 1) q) := by
  obtain ⟨-, -, -, -, -, -, -, -, e0, e1, -⟩ := idx_facts t
  unfold iblk
  rw [View.read_apply]
  show V m c main_v21 _ = V m c main_v21 _
  congr 1
  funext a
  apply Fin.ext
  match a with
  | ⟨0, _⟩ => show win0_4.index t 0 * 1 + 1 * 0 = 0; rw [e0]
  | ⟨1, _⟩ => show win0_4.index t 1 * 1024 + 1 * q.val = q.val; rw [e1]; omega

/-- The shift window's block is its whole one-row array at every point. -/
theorem shift_at (c : Dev nD) (t : Fin cfg0.N) (q : Fin 1024) :
    (iblk m c 5 t : Vec Ideal S1x1024 .f32) (ix2 (0 : Fin 1) q) = (V m c main_v22 : S1x1024.Idx → EReal) (ix2 (0 : Fin 1) q) := by
  obtain ⟨-, -, -, -, -, -, -, -, -, -, e0, e1, -⟩ := idx_facts t
  unfold iblk
  rw [View.read_apply]
  show V m c main_v22 _ = V m c main_v22 _
  congr 1
  funext a
  apply Fin.ext
  match a with
  | ⟨0, _⟩ => show win0_5.index t 0 * 1 + 1 * 0 = 0; rw [e0]
  | ⟨1, _⟩ => show win0_5.index t 1 * 1024 + 1 * q.val = q.val; rw [e1]; omega

/-! ## The region's output as one function of what it finds -/

/-- The clamped arrangement of the layer over the arrays the region finds. -/
abbrev regionOut (c : Dev nD) : S32768x1024.Idx → EReal :=
  clamped (V m c main_arg0) (V m c main_v19) (V m c main_v20) (V m c main_arg4) (V m c main_v21) (V m c main_v22)

/-- What point t writes back is block t of that function. -/
theorem flushed_eq (c : Dev nD) (t : Fin cfg0.N) :
    (dats m 0 c).flushed 6 t = ((cfg0.win 6).blk t).view.read (Elt Ideal) (regionOut m c) := by
  rw [flushed6]
  unfold out0_6
  rw [View.canon_unit_zero hz]
  simp only [View.ld_unit_zero (S := S512x1024) hz, View.ld_unit_zero (S := S1024x1024) hz, View.ld_unit_zero (S := S1x1024) hz]
  refine funext fun (j : S512x1024.Idx) => ?_
  obtain ⟨p, q, rfl⟩ : ∃ (p : Fin 512) (q : Fin 1024), j = ix2 p q := ⟨j 0, j 1, eq_ix2 (n0 := 512) (n1 := 1024) j⟩
  have ht : t.val < 64 := Nat.lt_of_lt_of_eq t.isLt (show cfg0.N = 64 from N_0)
  have hp := p.isLt
  obtain ⟨-, -, -, -, -, -, -, -, -, -, -, -, e6, e7⟩ := idx_facts t
  have hr : t.val * 512 + p.val < 32768 := by omega
  have hemb : ((cfg0.win 6).blk t).view.emb (ix2 p q) = ix2 (⟨t.val * 512 + p.val, hr⟩ : Fin 32768) q := by
    funext a
    apply Fin.ext
    match a with
    | ⟨0, _⟩ => show win0_6.index t 0 * 512 + 1 * p.val = t.val * 512 + p.val; rw [e6]; omega
    | ⟨1, _⟩ => show win0_6.index t 1 * 1024 + 1 * q.val = q.val; rw [e7]; omega
  show k0_pay1 (F := Ideal) (iblk m c 0 t) (iblk m c 1 t) (iblk m c 2 t) (iblk m c 3 t) (iblk m c 4 t) (iblk m c 5 t) (ix2 p q)
    = regionOut m c (((cfg0.win 6).blk t).view.emb (ix2 p q))
  rw [hemb]
  refine (body_at (iblk m c 0 t) (iblk m c 1 t) (iblk m c 2 t) (iblk m c 3 t) (iblk m c 4 t) (iblk m c 5 t) p q).trans ?_
  have hx : ∀ k : Fin 1024, (iblk m c 0 t : Vec Ideal S512x1024 .f32) (ix2 p k) = (V m c main_arg0 : S32768x1024.Idx → EReal) (ix2 (⟨t.val * 512 + p.val, hr⟩ : Fin 32768) k) :=
    fun k => tok_at m c t p k ⟨t.val * 512 + p.val, hr⟩ rfl
  have hn := noise_at m c t p q ⟨t.val * 512 + p.val, hr⟩ rfl
  have hwm : ∀ k : Fin 1024, (iblk m c 1 t : Vec Ideal S1024x1024 .f32) (ix2 k q) = (V m c main_v19 : S1024x1024.Idx → EReal) (ix2 k q) :=
    fun k => wmean_at m c t k q
  have hwv : ∀ k : Fin 1024, (iblk m c 2 t : Vec Ideal S1024x1024 .f32) (ix2 k q) = (V m c main_v20 : S1024x1024.Idx → EReal) (ix2 k q) :=
    fun k => wvar_at m c t k q
  simp only [hx, hn, hwm, hwv, scale_at m c t q, shift_at m c t q]
  rfl

/-- Row and column ranges of point t's output block. -/
theorem mem_blk (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v23).slice (win0_6.rect t)).set ↔ _
  rw [View.set_slice_whole, Rect.mem_set_unit]
  exact Iff.rfl

/-- Every entry of the result is in some point's block: row r is in block r / 512. -/
theorem covered (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 64 := N_0
  have hlt : (i 0).val / 512 < cfg0.N := by rw [hN]; omega
  obtain ⟨-, -, -, -, -, -, -, -, -, -, -, -, e6, e7⟩ := idx_facts ⟨(i 0).val / 512, hlt⟩
  refine ⟨⟨(i 0).val / 512, hlt⟩, flush0_6 _, ?_⟩
  rw [mem_blk]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [e6]
    show (i 0).val / 512 * 512 ≤ (i 0).val ∧ (i 0).val < (i 0).val / 512 * 512 + 512
    omega
  | ⟨1, _⟩ =>
    show win0_6.index ⟨(i 0).val / 512, hlt⟩ (1 : Fin 2) * 1024 ≤ (i 1).val ∧ (i 1).val < win0_6.index ⟨(i 0).val / 512, hlt⟩ (1 : Fin 2) * 1024 + 1024
    rw [e7]
    omega

/-- The result array after the region is that function of what the region found. -/
theorem final_out (c : Dev nD) : (dats m 0 c).arrAt 6 cfg0.N = regionOut m c :=
  (dats m 0 c).arrAt_eq_of_cover 6 (regionOut m c) (fun t _ => flushed_eq m c t) covered

/-! ## In terms of the arguments -/

/-- The layer's output of the arguments, the weight means and variances being the stages of the logits. -/
abbrev result (c : Dev nD) : S32768x1024.Idx → EReal :=
  layer (m ((c : Thread nD τ).loc main_arg0))
    (Cert.ReferenceIdeal.Read.val_main_v14 (F := Ideal) (m ((c : Thread nD τ).loc main_arg1)))
    (Cert.ReferenceIdeal.Read.val_main_v18 (F := Ideal) (m ((c : Thread nD τ).loc main_arg1)))
    (m ((c : Thread nD τ).loc main_arg2)) (m ((c : Thread nD τ).loc main_arg3)) (m ((c : Thread nD τ).loc main_arg4))

/-- The region's function is the layer: the weight windows hold the transposed stages, the scale and shift windows the
    vectors as rows, and the clamp does nothing on a variance stage that is not negative. -/
theorem regionOut_eq (c : Dev nD) : regionOut m c = result m c := by
  unfold regionOut result
  rw [V_main_arg0, V_main_arg4]
  refine clamped_eq_layer _ _ _ _ _ _ _ _ _ _ (fun k q => ?_) (fun k q => ?_) (fun q => ?_) (fun q => ?_)
    (fun q k => Cert.ReferenceIdeal.RefValue.variance_nonneg _ q k)
  · rw [V_mean]; exact transpose_ix2_apply _ _ k q
  · rw [V_var]; exact transpose_ix2_apply _ _ k q
  · rw [V_scale]; exact Cert.RowBias.ofVec_apply _ _ q
  · rw [V_shift]; exact Cert.RowBias.ofVec_apply _ _ q

/-- The kernel's run: the result array ends at the layer's output of the arguments, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final_out m c).trans (regionOut_eq m c)), (h c).2⟩)
    (Cert.KernelIdeal.Value.run_blocks m ρ)

end Cert.KernelIdeal.Hand

end
-- ==== Proof.RefLayer.lean ====
/-
  The reference computes the layer: its last stage, read at an index through the generated one-operation lemmas, is
  the layer's output with the weight means and variances the stages the reference itself builds from the logits.
  The two products with the weight matrices contract both operands on their last axis, so the sums run over the
  stored matrices' second coordinate; the scale and the shift reach index (p, q) through a one-row matrix broadcast
  down the rows, as their entry q.
-/
import proofs.«155211_j36369783063105_1_alg».proof.Proof.Gen.ReferenceIdeal.Read
import proofs.«155211_j36369783063105_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Ternary

theorem lidx19 (p : Fin 32768) (q k : Fin 1024) : lidx_main_v19 (ix2 p q) k = ix2 p k :=
  funext fun a => match a with | ⟨0, _⟩ => rfl | ⟨1, _⟩ => rfl
theorem ridx19 (p : Fin 32768) (q k : Fin 1024) : ridx_main_v19 (ix2 p q) k = ix2 q k :=
  funext fun a => match a with | ⟨0, _⟩ => rfl | ⟨1, _⟩ => rfl
theorem lidx21 (p : Fin 32768) (q k : Fin 1024) : lidx_main_v21 (ix2 p q) k = ix2 p k :=
  funext fun a => match a with | ⟨0, _⟩ => rfl | ⟨1, _⟩ => rfl
theorem ridx21 (p : Fin 32768) (q k : Fin 1024) : ridx_main_v21 (ix2 p q) k = ix2 q k :=
  funext fun a => match a with | ⟨0, _⟩ => rfl | ⟨1, _⟩ => rfl
theorem idx2526 (p : Fin 32768) (q : Fin 1024) : idx_main_v25 (idx_main_v26 (ix2 p q)) = ix1 q :=
  funext fun a => match a with | ⟨0, _⟩ => rfl
theorem idx2829 (p : Fin 32768) (q : Fin 1024) : idx_main_v28 (idx_main_v29 (ix2 p q)) = ix1 q :=
  funext fun a => match a with | ⟨0, _⟩ => rfl

/-- The reference's result is the layer's output array of its arguments, the weight means and variances being the
    stages it computes from the logits. -/
theorem ref_is_layer (x0 : (⟨S32768x1024, .f32⟩ : BufTy).Contents (Elt Ideal)) (x1 : (⟨S1024x1024x2, .f32⟩ : BufTy).Contents (Elt Ideal))
    (x2 x3 : (⟨S1024, .f32⟩ : BufTy).Contents (Elt Ideal)) (x4 : (⟨S32768x1024, .f32⟩ : BufTy).Contents (Elt Ideal)) :
    val_main_v30 (F := Ideal) x0 x1 x2 x3 x4
      = layer x0 (val_main_v14 (F := Ideal) x1) (val_main_v18 (F := Ideal) x1) x2 x3 x4 := by
  funext i
  obtain ⟨p, q, rfl⟩ : ∃ (p : Fin 32768) (q : Fin 1024), i = ix2 p q := ⟨i 0, i 1, eq_ix2 i⟩
  rw [val_main_v30_apply, val_main_v27_apply, val_main_v24_apply, val_main_v19_apply, val_main_v23_apply,
    val_main_v22_apply, val_main_v21_apply, val_main_v26_apply, val_main_v25_apply, val_main_v29_apply, val_main_v28_apply]
  simp only [val_main_v20_apply, lidx19, ridx19, lidx21, ridx21, idx2526, idx2829, Ideal.addf_def, Ideal.mulf_def,
    Ideal.hostUnary_sqrt_def]
  rfl

end Cert.ReferenceIdeal.RefValue

end
-- ==== Proof.lean ====
/-
  A stochastic ternary linear layer, tiled over 512-token row blocks with two matrix products per block, against the
  plain jnp layer, over the extended reals.

  Both programs build, by the same host operations on the logits, the weight means p · s and variances p - p² · s²
  (p = 1/(1 + e^(-a)), s = 2/(1 + e^(-b)) - 1), and return

      ((Σ_k x[n,k] · mean[o,k]) + √(Σ_k x[n,k]² · var[o,k]) · noise[n,o]) · scale[o] + shift[o].

  The tiled program stores the two weight matrices transposed and contracts on their first axis, lays the scale and
  shift out as one-row matrices, narrows the products' operands to a shorter float format (the identity here), and
  clamps the variance sum at zero from below before the square root. The clamp is the one operation the plain layer
  lacks, and it does nothing: every variance is not negative (p in [0, 1], s in [-1, 1], for every extended real
  logit), every square x · x is not negative, so the sum is not negative. Each of the 64 grid points writes one
  512-row block of that function, and the blocks tile the result.

  The frames of the two tiled programs and the run of the plain one are the generated ones; the idealization rewrote
  nothing, so its claim is trivial.
-/
import proofs.«155211_j36369783063105_1_alg».proof.Defs
import proofs.«155211_j36369783063105_1_alg».proof.Proof.Gen.Kernel
import proofs.«155211_j36369783063105_1_alg».proof.Proof.Gen.Kernel.Skeleton
import proofs.«155211_j36369783063105_1_alg».proof.Proof.Gen.Kernel.Launch
import proofs.«155211_j36369783063105_1_alg».proof.Proof.Gen.Kernel.Points
import proofs.«155211_j36369783063105_1_alg».proof.Proof.Gen.Kernel.Frame
import proofs.«155211_j36369783063105_1_alg».proof.Proof.Gen.KernelIdeal
import proofs.«155211_j36369783063105_1_alg».proof.Proof.Gen.KernelIdeal.Skeleton
import proofs.«155211_j36369783063105_1_alg».proof.Proof.Gen.KernelIdeal.Launch
import proofs.«155211_j36369783063105_1_alg».proof.Proof.Gen.KernelIdeal.Points
import proofs.«155211_j36369783063105_1_alg».proof.Proof.Gen.KernelIdeal.Frame
import proofs.«155211_j36369783063105_1_alg».proof.Proof.Gen.ReferenceIdeal
import proofs.«155211_j36369783063105_1_alg».proof.Proof.Gen.Pre_finite_inputs
import proofs.«155211_j36369783063105_1_alg».proof.Proof.Gen.KernelIdeal.Value
import proofs.«155211_j36369783063105_1_alg».proof.Proof.Gen.ReferenceIdeal.Run
import proofs.«155211_j36369783063105_1_alg».proof.Proof.Gen.ReferenceIdeal.Read
import proofs.«155211_j36369783063105_1_alg».proof.Proof.KernelValue
import proofs.«155211_j36369783063105_1_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain layer's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer's output of the arguments: the tiled one block by block with its clamp undone by
    the variances' sign, the plain one stage by stage. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v30_eq, Cert.ReferenceIdeal.RefValue.ref_is_layer, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
